-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel

variable [Facts]

def fn {F : FTy → Type} [FloatOps F] (main_arg0 : FVec F S64x256x56x56 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  main_v3
-- ==== Kernel.lean ====
abbrev S64x256x56x56 : Shape := ⟨4, ![64, 256, 56, 56]⟩
abbrev S16384x3136 : Shape := ⟨2, ![16384, 3136]⟩
abbrev S512x3136 : Shape := ⟨2, ![512, 3136]⟩
abbrev S16x3136 : Shape := ⟨2, ![16, 3136]⟩

abbrev nBuf : Space → Nat
  | .hbm => 4
  | .vmem => 4
  | .smem => 0
  | _ => 0

abbrev bufTy : (tb : Table) → Fin (tcTables nBuf tb) → BufTy
  | .hbm, ⟨0, _⟩ => ⟨S64x256x56x56, .f32⟩
  | .hbm, ⟨1, _⟩ => ⟨S16384x3136, .f32⟩
  | .hbm, ⟨2, _⟩ => ⟨S16384x3136, .f32⟩
  | .hbm, ⟨3, _⟩ => ⟨S64x256x56x56, .f32⟩
  | .local _ .vmem, ⟨0, _⟩ => ⟨S512x3136, .f32⟩
  | .local _ .vmem, ⟨1, _⟩ => ⟨S512x3136, .f32⟩
  | .local _ .vmem, ⟨2, _⟩ => ⟨S512x3136, .f32⟩
  | .local _ .vmem, ⟨3, _⟩ => ⟨S512x3136, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3136 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x256x56x56_S16384x3136 : S64x256x56x56.ShapeCasts S16384x3136
  inb_S512x3136_S16x3136_0_0 : ∀ a, (![0, 0] : Fin 2 → Nat) a + S16x3136.size a ≤ S512x3136.size a
  h_S16x3136 : 0 < S16x3136.numel
  shapeCasts_S16x3136_S16x3136 : S16x3136.ShapeCasts S16x3136
  inb_S512x3136_S16x3136_16_0 : ∀ a, (![16, 0] : Fin 2 → Nat) a + S16x3136.size a ≤ S512x3136.size a
  inb_S512x3136_S16x3136_32_0 : ∀ a, (![32, 0] : Fin 2 → Nat) a + S16x3136.size a ≤ S512x3136.size a
  inb_S512x3136_S16x3136_48_0 : ∀ a, (![48, 0] : Fin 2 → Nat) a + S16x3136.size a ≤ S512x3136.size a
  inb_S512x3136_S16x3136_64_0 : ∀ a, (![64, 0] : Fin 2 → Nat) a + S16x3136.size a ≤ S512x3136.size a
  inb_S512x3136_S16x3136_80_0 : ∀ a, (![80, 0] : Fin 2 → Nat) a + S16x3136.size a ≤ S512x3136.size a
  inb_S512x3136_S16x3136_96_0 : ∀ a, (![96, 0] : Fin 2 → Nat) a + S16x3136.size a ≤ S512x3136.size a
  inb_S512x3136_S16x3136_112_0 : ∀ a, (![112, 0] : Fin 2 → Nat) a + S16x3136.size a ≤ S512x3136.size a
  inb_S512x3136_S16x3136_128_0 : ∀ a, (![128, 0] : Fin 2 → Nat) a + S16x3136.size a ≤ S512x3136.size a
  inb_S512x3136_S16x3136_144_0 : ∀ a, (![144, 0] : Fin 2 → Nat) a + S16x3136.size a ≤ S512x3136.size a
  inb_S512x3136_S16x3136_160_0 : ∀ a, (![160, 0] : Fin 2 → Nat) a + S16x3136.size a ≤ S512x3136.size a
  inb_S512x3136_S16x3136_176_0 : ∀ a, (![176, 0] : Fin 2 → Nat) a + S16x3136.size a ≤ S512x3136.size a
  inb_S512x3136_S16x3136_192_0 : ∀ a, (![192, 0] : Fin 2 → Nat) a + S16x3136.size a ≤ S512x3136.size a
  inb_S512x3136_S16x3136_208_0 : ∀ a, (![208, 0] : Fin 2 → Nat) a + S16x3136.size a ≤ S512x3136.size a
  inb_S512x3136_S16x3136_224_0 : ∀ a, (![224, 0] : Fin 2 → Nat) a + S16x3136.size a ≤ S512x3136.size a
  inb_S512x3136_S16x3136_240_0 : ∀ a, (![240, 0] : Fin 2 → Nat) a + S16x3136.size a ≤ S512x3136.size a
  inb_S512x3136_S16x3136_256_0 : ∀ a, (![256, 0] : Fin 2 → Nat) a + S16x3136.size a ≤ S512x3136.size a
  inb_S512x3136_S16x3136_272_0 : ∀ a, (![272, 0] : Fin 2 → Nat) a + S16x3136.size a ≤ S512x3136.size a
  inb_S512x3136_S16x3136_288_0 : ∀ a, (![288, 0] : Fin 2 → Nat) a + S16x3136.size a ≤ S512x3136.size a
  inb_S512x3136_S16x3136_304_0 : ∀ a, (![304, 0] : Fin 2 → Nat) a + S16x3136.size a ≤ S512x3136.size a
  inb_S512x3136_S16x3136_320_0 : ∀ a, (![320, 0] : Fin 2 → Nat) a + S16x3136.size a ≤ S512x3136.size a
  inb_S512x3136_S16x3136_336_0 : ∀ a, (![336, 0] : Fin 2 → Nat) a + S16x3136.size a ≤ S512x3136.size a
  inb_S512x3136_S16x3136_352_0 : ∀ a, (![352, 0] : Fin 2 → Nat) a + S16x3136.size a ≤ S512x3136.size a
  inb_S512x3136_S16x3136_368_0 : ∀ a, (![368, 0] : Fin 2 → Nat) a + S16x3136.size a ≤ S512x3136.size a
  inb_S512x3136_S16x3136_384_0 : ∀ a, (![384, 0] : Fin 2 → Nat) a + S16x3136.size a ≤ S512x3136.size a
  inb_S512x3136_S16x3136_400_0 : ∀ a, (![400, 0] : Fin 2 → Nat) a + S16x3136.size a ≤ S512x3136.size a
  inb_S512x3136_S16x3136_416_0 : ∀ a, (![416, 0] : Fin 2 → Nat) a + S16x3136.size a ≤ S512x3136.size a
  inb_S512x3136_S16x3136_432_0 : ∀ a, (![432, 0] : Fin 2 → Nat) a + S16x3136.size a ≤ S512x3136.size a
  inb_S512x3136_S16x3136_448_0 : ∀ a, (![448, 0] : Fin 2 → Nat) a + S16x3136.size a ≤ S512x3136.size a
  inb_S512x3136_S16x3136_464_0 : ∀ a, (![464, 0] : Fin 2 → Nat) a + S16x3136.size a ≤ S512x3136.size a
  inb_S512x3136_S16x3136_480_0 : ∀ a, (![480, 0] : Fin 2 → Nat) a + S16x3136.size a ≤ S512x3136.size a
  inb_S512x3136_S16x3136_496_0 : ∀ a, (![496, 0] : Fin 2 → Nat) a + S16x3136.size a ≤ S512x3136.size a
  shapeCasts_S16384x3136_S64x256x56x56 : S16384x3136.ShapeCasts S64x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3136.size a ≤ S16384x3136.size a
  hwx0_0 : ∀ i : grid0.Coords, EltTy.bits .f32 = 32 ∨ (Rect.block (s := S16384x3136) S512x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3136.size a ≤ S16384x3136.size a
  hwx0_1 : ∀ i : grid0.Coords, EltTy.bits .f32 = 32 ∨ (Rect.block (s := S16384x3136) S512x3136.size (cc0_transform_1 i) (hinb0_1 i)).WholeWords (EltTy.packing .f32)

variable [Facts₀]

abbrev win0_0 : Pipeline.Window sig grid0 :=
  Pipeline.Window.ofSpec (Memref.whole main_v0) S512x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x3136.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S256 : Shape := ⟨1, ![256]⟩
abbrev S1x256x1x1 : Shape := ⟨4, ![1, 256, 1, 1]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S256, .i32⟩
  | .hbm, ⟨2, _⟩ => ⟨S1x256x1x1, .i32⟩
  | .hbm, ⟨3, _⟩ => ⟨S_, .i32⟩
  | .hbm, ⟨4, _⟩ => ⟨S1x256x1x1, .i32⟩
  | .hbm, ⟨5, _⟩ => ⟨S1x256x1x1, .i1⟩
  | .hbm, ⟨6, _⟩ => ⟨S_, .f32⟩
  | .hbm, ⟨7, _⟩ => ⟨S64x256x56x56, .f32⟩
  | .hbm, ⟨8, _⟩ => ⟨S64x256x56x56, .f32⟩
  | .hbm, ⟨9, _⟩ => ⟨S_, .i32⟩
  | .hbm, ⟨10, _⟩ => ⟨S1x256x1x1, .i32⟩
  | .hbm, ⟨11, _⟩ => ⟨S1x256x1x1, .i1⟩
  | .hbm, ⟨12, _⟩ => ⟨S64x256x56x56, .f32⟩
  | .hbm, ⟨13, _⟩ => ⟨S64x256x56x56, .f32⟩
  | .hbm, ⟨14, _⟩ => ⟨S64x256x56x56, .f32⟩
  | .hbm, ⟨15, _⟩ => ⟨S_, .f32⟩
  | .hbm, ⟨16, _⟩ => ⟨S64x256x56x56, .f32⟩
  | .hbm, ⟨17, _⟩ => ⟨S64x256x56x56, .f32⟩
  | .hbm, ⟨18, _⟩ => ⟨S_, .f32⟩
  | .hbm, ⟨19, _⟩ => ⟨S64x256x56x56, .f32⟩
  | .hbm, ⟨20, _⟩ => ⟨S64x256x56x56, .f32⟩
  | .hbm, ⟨21, _⟩ => ⟨S64x256x56x56, .i1⟩
  | .hbm, ⟨22, _⟩ => ⟨S64x256x56x56, .f32⟩
  | .hbm, ⟨23, _⟩ => ⟨S64x256x56x56, .i1⟩
  | .hbm, ⟨24, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_call1_v0 : Ref sig .tc := ⟨.hbm, 21, rfl⟩
abbrev main_v13 : Ref sig .tc := ⟨.hbm, 22, rfl⟩
abbrev main_call2_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S256_S1x256x1x1_1 : S256.BroadcastsInDim S1x256x1x1 (![1] : Fin 1 → Fin S1x256x1x1.rank)
  bcast_S_S1x256x1x1 : S_.BroadcastsInDim S1x256x1x1 (![] : Fin 0 → Fin S1x256x1x1.rank)
  bcast_S_S64x256x56x56 : S_.BroadcastsInDim S64x256x56x56 (![] : Fin 0 → Fin S64x256x56x56.rank)
  bcast_S1x256x1x1_S64x256x56x56_0_1_2_3 : S1x256x1x1.BroadcastsInDim S64x256x56x56 (![0, 1, 2, 3] : Fin 4 → Fin S64x256x56x56.rank)

variable [Facts₀]

class Facts : Prop extends Facts₀ where

variable [Facts]
-- ==== Proof.Spec.lean ====
/-
  The function both programs compute, stated once over any float instance.

  A row of the flattened input belongs to channel `r % 256`; channels come in runs of sixteen, and the run number
  modulo three selects the activation: rectifier (the maximum with zero), hyperbolic tangent, or the logistic
  function.  `actOn ax a` applies, at every index, the activation selected by the coordinate on axis `ax`.
-/
import Idealize.ShloMosaic.PureOps
import Idealize.ShloMosaic.Lib.ValueIdx

noncomputable section

namespace Cert.MixedAct

open Idealize.ShloMosaic

variable {F : FTy → Type} [FloatOps F]

/-- The activation class of row (or channel) number `r`: the number of its run of sixteen channels, modulo three. -/
def cls (r : ℕ) : ℕ := r % 256 / 16 % 3

/-- The activation of class `k`: `0` the rectifier `max x 0`, `1` the hyperbolic tangent, anything else the logistic
    function. -/
def act (k : ℕ) (x : F .f32) : F .f32 :=
  match k with
  | 0 => FloatOps.maximumf x (FloatOps.ofBits .f32 0x00000000#32)
  | 1 => FloatOps.tanh x
  | _ => FloatOps.logistic x

theorem act_zero (x : F .f32) : act 0 x = FloatOps.maximumf x (FloatOps.ofBits .f32 0x00000000#32) := rfl
theorem act_one (x : F .f32) : act 1 x = FloatOps.tanh x := rfl
theorem act_two (x : F .f32) : act 2 x = FloatOps.logistic x := rfl

/-- Every entry of `a` under the activation its coordinate on axis `ax` selects. -/
def actOn {s : Shape} (ax : Fin s.rank) (a : s.Idx → F .f32) : s.Idx → F .f32 :=
  fun i => act (cls (i ax).val) (a i)

theorem actOn_apply {s : Shape} (ax : Fin s.rank) (a : s.Idx → F .f32) (i : s.Idx) :
    actOn ax a i = act (cls (i ax).val) (a i) := rfl

/-- All sixteen rows of a run that starts at a multiple of sixteen have the run's class. -/
theorem cls_add (o d : ℕ) (ho : o % 16 = 0) (hd : d < 16) : cls (o + d) = cls o := by
  unfold cls; omega

/-- The class of a row depends only on its channel `r % 256`; a block of 512 rows starts at a multiple of 256. -/
theorem cls_block (t p : ℕ) : cls (t * 512 + p) = cls p := by
  unfold cls; omega

/-- Row `n * 256 + c` of the flattened array has channel `c`'s class. -/
theorem cls_row (n c : ℕ) (hc : c < 256) : cls (n * 256 + c) = cls c := by
  unfold cls; omega

end Cert.MixedAct

end
-- ==== Proof.Block.lean ====
/-
  What the kernel body leaves in the output window's staging buffer, as ONE function of the input block.

  The body cuts the 512-row block into thirty-two groups of sixteen rows and stores, for each group, the rectifier,
  the hyperbolic tangent or the logistic function of the group's rows, the choice cycling with the group number.
  Group `j` starts at row `16 j`, so every row of it has class `cls (16 j)`; the thirty-two stores tile the buffer, and
  together they are `actOn 0` of the input block: each entry under the activation its row selects.
-/
import proofs.«423847_j71846212927677_3_alg».proof.Proof.Gen.KernelIdeal.Frame
import proofs.«423847_j71846212927677_3_alg».proof.Proof.Spec
import Idealize.ShloMosaic.Lib.Pipeline.Value

set_option maxRecDepth 16384

noncomputable section

namespace Cert.KernelIdeal.Block

open Cert.KernelIdeal Cert.KernelIdeal.Gen Cert.MixedAct Idealize.ShloMosaic Idealize.ShloMosaic.TcCoe Idealize.SL.Sem

variable {F : FTy → Type} [FloatOps F]

/-- Row `d` of the group of sixteen rows that starts at row `o` is row `o + d` of the block. -/
theorem group_row (o : ℕ) (inb : ∀ a, (![o, 0] : Fin 2 → ℕ) a + S16x3136.size a ≤ S512x3136.size a) (x : S16x3136.Idx) :
    (((Rect.unit (s := S512x3136) ![o, 0] S16x3136.size inb).emb x) 0).val = o + (x 0).val := by
  rw [Rect.emb_apply]
  show o + 1 * (x 0).val = o + (x 0).val
  omega

/-- The loaded group, cast to its own shape, read at `x`: the block at the group's row. -/
theorem ld_cast (xb : Vec F S512x3136 .f32) (o : ℕ) (inb : ∀ a, (![o, 0] : Fin 2 → ℕ) a + S16x3136.size a ≤ S512x3136.size a)
    (h : S16x3136.ShapeCasts S16x3136) (x : S16x3136.Idx) :
    shapeCast S16x3136 (View.ld xb (Rect.unit (s := S512x3136) ![o, 0] S16x3136.size inb)) h x
      = xb ((Rect.unit (s := S512x3136) ![o, 0] S16x3136.size inb).emb x) :=
  congrFun (shapeCast_self (s := S16x3136) (View.ld xb (Rect.unit (s := S512x3136) ![o, 0] S16x3136.size inb)) h) x

/-- A group whose class is `0`: the stored rectifier of the loaded rows is `actOn` of the block on those rows. -/
theorem piece_relu (xb : Vec F S512x3136 .f32) (o : ℕ) (inb : ∀ a, (![o, 0] : Fin 2 → ℕ) a + S16x3136.size a ≤ S512x3136.size a)
    (h : S16x3136.ShapeCasts S16x3136) (ho : o % 16 = 0) (hk : cls o = 0) (x : S16x3136.Idx) :
    maximumf (shapeCast S16x3136 (View.ld xb (Rect.unit (s := S512x3136) ![o, 0] S16x3136.size inb)) h)
        (broadcast S16x3136 (Scalar.ofBits .f32 0x00000000#32)) x
      = actOn (s := S512x3136) 0 xb ((Rect.unit (s := S512x3136) ![o, 0] S16x3136.size inb).emb x) := by
  show FloatOps.maximumf (shapeCast S16x3136 (View.ld xb (Rect.unit (s := S512x3136) ![o, 0] S16x3136.size inb)) h x)
      (FloatOps.ofBits .f32 0x00000000#32) = _
  rw [ld_cast, actOn_apply, group_row, cls_add o _ ho (x 0).isLt, hk, act_zero]

/-- A group whose class is `1`: the stored hyperbolic tangent. -/
theorem piece_tanh (xb : Vec F S512x3136 .f32) (o : ℕ) (inb : ∀ a, (![o, 0] : Fin 2 → ℕ) a + S16x3136.size a ≤ S512x3136.size a)
    (h : S16x3136.ShapeCasts S16x3136) (ho : o % 16 = 0) (hk : cls o = 1) (x : S16x3136.Idx) :
    tanh (shapeCast S16x3136 (View.ld xb (Rect.unit (s := S512x3136) ![o, 0] S16x3136.size inb)) h) x
      = actOn (s := S512x3136) 0 xb ((Rect.unit (s := S512x3136) ![o, 0] S16x3136.size inb).emb x) := by
  show FloatOps.tanh (shapeCast S16x3136 (View.ld xb (Rect.unit (s := S512x3136) ![o, 0] S16x3136.size inb)) h x) = _
  rw [ld_cast, actOn_apply, group_row, cls_add o _ ho (x 0).isLt, hk, act_one]

/-- A group whose class is `2`: the stored logistic function. -/
theorem piece_logistic (xb : Vec F S512x3136 .f32) (o : ℕ) (inb : ∀ a, (![o, 0] : Fin 2 → ℕ) a + S16x3136.size a ≤ S512x3136.size a)
    (h : S16x3136.ShapeCasts S16x3136) (ho : o % 16 = 0) (hk : cls o = 2) (x : S16x3136.Idx) :
    logistic (shapeCast S16x3136 (View.ld xb (Rect.unit (s := S512x3136) ![o, 0] S16x3136.size inb)) h) x
      = actOn (s := S512x3136) 0 xb ((Rect.unit (s := S512x3136) ![o, 0] S16x3136.size inb).emb x) := by
  show FloatOps.logistic (shapeCast S16x3136 (View.ld xb (Rect.unit (s := S512x3136) ![o, 0] S16x3136.size inb)) h x) = _
  rw [ld_cast, actOn_apply, group_row, cls_add o _ ho (x 0).isLt, hk, act_two]

/-- THE BLOCK after the body: every entry of the input block under the activation its row selects. -/
theorem out_eq (xb : Vec F S512x3136 .f32) : out0_1 xb = actOn (s := S512x3136) 0 xb := by
  funext y
  unfold out0_1
  refine View.canon_apply_of_pieces (actOn (s := S512x3136) 0 xb) _ ?_ y (cover0_1 _ _ _ _ _ _ _ _ _ _ _ _ _ _ _ _ _ _ _ _ _ _ _ _ _ _ _ _ _ _ _ _ y)
  intro p hp x
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece_relu xb 496 _ _ (by decide) (by decide) x
  · exact piece_logistic xb 480 _ _ (by decide) (by decide) x
  · exact piece_tanh xb 464 _ _ (by decide) (by decide) x
  · exact piece_relu xb 448 _ _ (by decide) (by decide) x
  · exact piece_logistic xb 432 _ _ (by decide) (by decide) x
  · exact piece_tanh xb 416 _ _ (by decide) (by decide) x
  · exact piece_relu xb 400 _ _ (by decide) (by decide) x
  · exact piece_logistic xb 384 _ _ (by decide) (by decide) x
  · exact piece_tanh xb 368 _ _ (by decide) (by decide) x
  · exact piece_relu xb 352 _ _ (by decide) (by decide) x
  · exact piece_logistic xb 336 _ _ (by decide) (by decide) x
  · exact piece_tanh xb 320 _ _ (by decide) (by decide) x
  · exact piece_relu xb 304 _ _ (by decide) (by decide) x
  · exact piece_logistic xb 288 _ _ (by decide) (by decide) x
  · exact piece_tanh xb 272 _ _ (by decide) (by decide) x
  · exact piece_relu xb 256 _ _ (by decide) (by decide) x
  · exact piece_relu xb 240 _ _ (by decide) (by decide) x
  · exact piece_logistic xb 224 _ _ (by decide) (by decide) x
  · exact piece_tanh xb 208 _ _ (by decide) (by decide) x
  · exact piece_relu xb 192 _ _ (by decide) (by decide) x
  · exact piece_logistic xb 176 _ _ (by decide) (by decide) x
  · exact piece_tanh xb 160 _ _ (by decide) (by decide) x
  · exact piece_relu xb 144 _ _ (by decide) (by decide) x
  · exact piece_logistic xb 128 _ _ (by decide) (by decide) x
  · exact piece_tanh xb 112 _ _ (by decide) (by decide) x
  · exact piece_relu xb 96 _ _ (by decide) (by decide) x
  · exact piece_logistic xb 80 _ _ (by decide) (by decide) x
  · exact piece_tanh xb 64 _ _ (by decide) (by decide) x
  · exact piece_relu xb 48 _ _ (by decide) (by decide) x
  · exact piece_logistic xb 32 _ _ (by decide) (by decide) x
  · exact piece_tanh xb 16 _ _ (by decide) (by decide) x
  · exact piece_relu xb 0 _ _ (by decide) (by decide) x

end Cert.KernelIdeal.Block

end
-- ==== Proof.Reshape.lean ====
/-
  Flattening commutes with the activations.

  The kernel's program views the `[64, 256, 56, 56]` array as `[16384, 3136]`: entry `(n, c, h, w)` is entry
  `(n * 256 + c, h * 56 + w)` of the flat view, the two having the same row-major position.  Row `n * 256 + c` has
  channel `c`, so applying to every flat entry the activation its ROW selects and viewing the result at the
  original shape applies to every entry the activation its CHANNEL selects.
-/
import proofs.«423847_j71846212927677_3_alg».proof.Proof.Spec
import Idealize.ShloMosaic.Lib.Pipeline.Value
import Idealize.ShloMosaic.Lib.ValueIdx

noncomputable section

namespace Cert.MixedAct

open Idealize.ShloMosaic Idealize.ShloMosaic.ValueIdx

variable {F : FTy → Type} [FloatOps F]

/-- The array's shape, and its flat view's. -/
abbrev Full : Shape := ⟨4, ![64, 256, 56, 56]⟩
abbrev Flat : Shape := ⟨2, ![16384, 3136]⟩

/-- The flat position of entry `(n, c, h, w)`: row `n * 256 + c`, column `h * 56 + w`. -/
def flat (i : Full.Idx) : Flat.Idx :=
  ix2 (⟨(i 0).val * 256 + (i 1).val, by
        have h0 : (i 0).val < 64 := (i 0).isLt
        have h1 : (i 1).val < 256 := (i 1).isLt
        omega⟩ : Fin 16384)
      (⟨(i 2).val * 56 + (i 3).val, by
        have h2 : (i 2).val < 56 := (i 2).isLt
        have h3 : (i 3).val < 56 := (i 3).isLt
        omega⟩ : Fin 3136)

theorem flat_row (i : Full.Idx) : ((flat i) 0).val = (i 0).val * 256 + (i 1).val := rfl

/-- An entry and its flat position have the same row-major rank. -/
theorem flat_pos (i : Full.Idx) : (Flat.rowMajor (flat i)).val = (Full.rowMajor i).val := by
  rw [Shape.rowMajor_val_two, Shape.rowMajor_val_four]
  show ((i 0).val * 256 + (i 1).val) * 3136 + ((i 2).val * 56 + (i 3).val)
    = (((i 0).val * 256 + (i 1).val) * 56 + (i 2).val) * 56 + (i 3).val
  omega

/-- Flatten, apply the activation each ROW selects, view at the original shape: the activation each CHANNEL selects. -/
theorem unflatten_actOn (x : Full.Idx → F .f32) (h1 : Full.ShapeCasts Flat) (h2 : Flat.ShapeCasts Full) :
    shapeCast Full (actOn (s := Flat) 0 (shapeCast Flat x h1)) h2 = actOn (s := Full) 1 x := by
  funext i
  have hc : (i 1).val < 256 := (i 1).isLt
  rw [shapeCast_apply _ h2 i (flat i) (flat_pos i), actOn_apply, actOn_apply,
    shapeCast_apply x h1 (flat i) i (flat_pos i).symm, flat_row, cls_row _ _ hc]

end Cert.MixedAct

end
-- ==== Proof.Rows.lean ====
/-
  The kernel program's result as one function of its argument.

  @main flattens the argument to `[16384, 3136]`, runs the kernel over thirty-two blocks of 512 rows, and views the
  kernel's output at the original shape.  Grid point `t` reads rows `512 t … 512 t + 511` and writes back the same rows;
  by `Block.out_eq` what it writes is each entry under the activation its row IN THE BLOCK selects, and since a block
  starts at a multiple of 256 that is the activation its row in the ARRAY selects.  The blocks tile the array, so the
  output array is `actOn 0` of the flattened argument; viewed at the original shape it is `actOn 1` of the argument
  (`unflatten_actOn`).
-/
import proofs.«423847_j71846212927677_3_alg».proof.Proof.Block
import proofs.«423847_j71846212927677_3_alg».proof.Proof.Reshape
import Idealize.ShloMosaic.Lib.Pipeline.Value
import Idealize.ShloMosaic.Lib.StableHlo.Run

set_option maxRecDepth 16384

noncomputable section

namespace Cert.KernelIdeal.Rows

open Cert.KernelIdeal Cert.KernelIdeal.Gen Cert.MixedAct Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Both windows' block at grid point `t` is block `(t, 0)`: decided over the thirty-two points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT POINT `t` WRITES BACK is block `t` of the row-wise activation of the flattened argument. -/
theorem flushed_eq (c : Dev nD) (t : Fin cfg0.N) :
    (dats m 0 c).flushed 1 t
      = ((cfg0.win 1).blk t).view.read (Elt F) (actOn (s := S16384x3136) 0 (V m c main_v0)) := by
  show (cfg0.win 1).cut (grid0.coords t) ((dats m 0 c).after 1 t) = _
  rw [after0_1, Block.out_eq]
  obtain ⟨e0, e1, e2, e3⟩ := idx_facts t
  funext j
  show act (cls (j 0).val) (V m c main_v0 (((cfg0.win 0).blk t).view.emb j))
    = act (cls ((((cfg0.win 1).blk t).view.emb j) 0).val) (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 3136 + 1 * (j 1).val = win0_1.index t (1 : Fin 2) * 3136 + 1 * (j 1).val; omega
  have h1 : ((((cfg0.win 1).blk t).view.emb j) 0).val = t.val * 512 + (j 0).val := by
    show win0_1.index t (0 : Fin 2) * 512 + 1 * (j 0).val = _; omega
  rw [h0, h1, cls_block]

/-- An index of the output array is in point `t`'s block iff each coordinate is in the block's range. -/
theorem mem_blk (t : Fin cfg0.N) (i : S16384x3136.Idx) :
    i ∈ ((cfg0.win 1).blk t).view.set ↔ ∀ a : Fin 2, win0_1.index t a * S512x3136.size a ≤ (i a).val
      ∧ (i a).val < win0_1.index t a * S512x3136.size a + S512x3136.size a := by
  show i ∈ ((View.whole main_v1).slice (win0_1.rect t)).set ↔ _
  rw [View.set_slice_whole, Rect.mem_set_unit]
  exact Iff.rfl

/-- The blocks tile the array: row `r` is in the block of point `r / 512`. -/
theorem cover (i : S16384x3136.Idx) :
    ∃ t : Fin cfg0.N, (cfg0.win 1).flush t = true ∧ i ∈ ((cfg0.win 1).blk t).view.set := by
  have hi0 : (i 0).val < 16384 := (i 0).isLt
  have hi1 : (i 1).val < 3136 := (i 1).isLt
  have hN : cfg0.N = 32 := N_0
  have ht : (i 0).val / 512 < cfg0.N := by rw [hN]; omega
  obtain ⟨e0, e1, e2, e3⟩ := idx_facts ⟨(i 0).val / 512, ht⟩
  refine ⟨⟨(i 0).val / 512, ht⟩, flush0_1 _, ?_⟩
  rw [mem_blk]
  intro a
  match a with
  | ⟨0, _⟩ =>
    show win0_1.index ⟨(i 0).val / 512, ht⟩ (0 : Fin 2) * 512 ≤ (i 0).val
      ∧ (i 0).val < win0_1.index ⟨(i 0).val / 512, ht⟩ (0 : Fin 2) * 512 + 512
    have e2' : win0_1.index ⟨(i 0).val / 512, ht⟩ (0 : Fin 2) = (i 0).val / 512 := e2
    omega
  | ⟨1, _⟩ =>
    show win0_1.index ⟨(i 0).val / 512, ht⟩ (1 : Fin 2) * 3136 ≤ (i 1).val
      ∧ (i 1).val < win0_1.index ⟨(i 0).val / 512, ht⟩ (1 : Fin 2) * 3136 + 3136
    omega

/-- THE OUTPUT ARRAY after the run: the row-wise activation of the flattened argument. -/
theorem final (c : Dev nD) : (dats m 0 c).arrAt 1 cfg0.N = actOn (s := S16384x3136) 0 (V m c main_v0) :=
  (dats m 0 c).arrAt_eq_of_cover 1 _ (fun t _ => flushed_eq m c t) cover

/-- The array the region finds in the input window: the argument, flattened. -/
theorem V_flat (c : Dev nD) :
    (V m c main_v0 : S16384x3136.Idx → Elt F .f32)
      = shapeCast S16384x3136 (m ((c : Thread nD τ).loc main_arg0)) shapeCasts_S64x256x56x56_S16384x3136 := by
  show StableHlo.after hostOps0 (fun b => m (c, b)) (Proc.devRef .tc main_v0) = _
  after_results
  rfl

/-- The program's result: the output array viewed at the argument's shape. -/
theorem tail_eq (c : Dev nD) :
    (Pipeline.afterTail₀ cfgs (dats m) 0 (V0 m) [hostOps1] c main_v2 : S64x256x56x56.Idx → Elt F .f32)
      = shapeCast S64x256x56x56 ((dats m 0 c).arrAt 1 cfg0.N) shapeCasts_S16384x3136_S64x256x56x56 := by
  unfold Pipeline.afterTail₀
  show StableHlo.after hostOps1 _ (Proc.devRef .tc main_v2) = _
  after_results
  exact congrArg (fun a : S16384x3136.Idx → Elt F .f32 => shapeCast S64x256x56x56 a shapeCasts_S16384x3136_S64x256x56x56)
    (Pipeline.withArrays_arr spec0 launch0.win.arr_inj c (V0 m c) (fun w => (dats m 0 c).arrAt w cfg0.N) 1)

/-- THE RUN, READ: every weakly fair execution terminates with the result buffer at the channel-wise activation of
    the argument and the argument unchanged. -/
theorem run : θ_run defs (onTc (τ := τ) (main (F := F))) ⟨m, fun _ => 0, ρ⟩ fun r => ∀ c : Dev nD,
      r.2.mem ((c.tc : Thread nD τ).loc main_v2) = actOn (s := S64x256x56x56) 1 (m ((c.tc : Thread nD τ).loc main_arg0))
      ∧ r.2.mem ((c.tc : Thread nD τ).loc main_arg0) = m ((c.tc : Thread nD τ).loc main_arg0) :=
  (θ_run defs _ _).mono (fun r h c =>
      ⟨(((h c).2 main_v2 (Pipeline.mem_restRefs_of main_v2 (by decide) (by decide))).trans (tail_eq m c)).trans (by
          rw [final, V_flat]
          exact unflatten_actOn _ _ _),
        ((h c).2 main_arg0 (Pipeline.mem_restRefs_of main_arg0 (by decide) (by decide))).trans (W_main_arg0 m (dats m) c)⟩)
    (run_main m ρ)

end Cert.KernelIdeal.Rows

end
-- ==== Proof.RefRun.lean ====
/-
  The reference program's run, read back.

  The reference is a straight line of host operations: the table of channel classes broadcast along the channel
  axis and compared with `0` and with `1`; the rectifier, the hyperbolic tangent and the quotient `1 / (1 + exp (-x))`
  of the whole argument; and two selections that pick, entry by entry, the rectifier where the class is `0`, the
  tangent where it is `1`, the quotient elsewhere.  The outlined helper functions are listed at their call sites
  over the buffers of each call.  Every weakly fair execution ends with the result buffer at `refTerm` of the
  argument and the argument unchanged.
-/
import proofs.«423847_j71846212927677_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The channel classes as the program holds them: the literal table along the one axis. -/
abbrev table : (⟨S256, .i32⟩ : BufTy).Contents (Elt F) := fun i => lit0 (S256.rowMajor i)

/-- The mask "the channel's class is `k`", one entry per channel. -/
abbrev classIs (k : BitVec 32) : (⟨S1x256x1x1, .i1⟩ : BufTy).Contents (Elt F) :=
  cmpi .eq (broadcastInDim S1x256x1x1 ![1] bcast_S256_S1x256x1x1_1 (table (F := F)))
    (broadcastInDim S1x256x1x1 ![] bcast_S_S1x256x1x1 (constantI S_ 32 k))

/-- The reference's result as one term of its argument: the operations composed. -/
def refTerm (x : (⟨S64x256x56x56, .f32⟩ : BufTy).Contents (Elt F)) : (⟨S64x256x56x56, .f32⟩ : BufTy).Contents (Elt F) :=
  select (broadcastInDim S64x256x56x56 ![0, 1, 2, 3] bcast_S1x256x1x1_S64x256x56x56_0_1_2_3 (classIs (F := F) 0#32))
    (maximumf x (broadcastInDim S64x256x56x56 ![] bcast_S_S64x256x56x56 (constant S_ .f32 0x00000000#32)))
    (select (broadcastInDim S64x256x56x56 ![0, 1, 2, 3] bcast_S1x256x1x1_S64x256x56x56_0_1_2_3 (classIs (F := F) 1#32))
      (Host.tanh x)
      (Host.divf (broadcastInDim S64x256x56x56 ![] bcast_S_S64x256x56x56 (constant S_ .f32 0x3F800000#32))
        (addf (broadcastInDim S64x256x56x56 ![] bcast_S_S64x256x56x56 (constant S_ .f32 0x3F800000#32)) (Host.exp (Host.negf x)))))

/-- @main's operations in order, each call's body in place over that call's own buffers. -/
abbrev ops : List (HloOp τ sig (Elt F)) :=
  [ nullary main_c (fun i => lit0 (S256.rowMajor i)),
    unary main_c main_v0 (broadcastInDim S1x256x1x1 ![1] bcast_S256_S1x256x1x1_1 : (⟨S256, .i32⟩ : BufTy).Contents (Elt F) → (⟨S1x256x1x1, .i32⟩ : BufTy).Contents (Elt F)),
    nullary main_c_0 (constantI S_ 32 0#32),
    unary main_c_0 main_v1 (broadcastInDim S1x256x1x1 ![] bcast_S_S1x256x1x1 : (⟨S_, .i32⟩ : BufTy).Contents (Elt F) → (⟨S1x256x1x1, .i32⟩ : BufTy).Contents (Elt F)),
    binary main_v0 main_v1 main_v2 (cmpi .eq : (⟨S1x256x1x1, .i32⟩ : BufTy).Contents (Elt F) → (⟨S1x256x1x1, .i32⟩ : BufTy).Contents (Elt F) → (⟨S1x256x1x1, .i1⟩ : BufTy).Contents (Elt F)),
    nullary main_call0_cst (constant S_ .f32 0x00000000#32),
    unary main_call0_cst main_call0_v0 (broadcastInDim S64x256x56x56 ![] bcast_S_S64x256x56x56 : (⟨S_, .f32⟩ : BufTy).Contents (Elt F) → (⟨S64x256x56x56, .f32⟩ : BufTy).Contents (Elt F)),
    binary main_arg0 main_call0_v0 main_v3 (maximumf : (⟨S64x256x56x56, .f32⟩ : BufTy).Contents (Elt F) → (⟨S64x256x56x56, .f32⟩ : BufTy).Contents (Elt F) → (⟨S64x256x56x56, .f32⟩ : BufTy).Contents (Elt F)),
    nullary main_c_1 (constantI S_ 32 1#32),
    unary main_c_1 main_v4 (broadcastInDim S1x256x1x1 ![] bcast_S_S1x256x1x1 : (⟨S_, .i32⟩ : BufTy).Contents (Elt F) → (⟨S1x256x1x1, .i32⟩ : BufTy).Contents (Elt F)),
    binary main_v0 main_v4 main_v5 (cmpi .eq : (⟨S1x256x1x1, .i32⟩ : BufTy).Contents (Elt F) → (⟨S1x256x1x1, .i32⟩ : BufTy).Contents (Elt F) → (⟨S1x256x1x1, .i1⟩ : BufTy).Contents (Elt F)),
    unary main_arg0 main_v6 (Host.tanh : (⟨S64x256x56x56, .f32⟩ : BufTy).Contents (Elt F) → (⟨S64x256x56x56, .f32⟩ : BufTy).Contents (Elt F)),
    unary main_arg0 main_v7 (Host.negf : (⟨S64x256x56x56, .f32⟩ : BufTy).Contents (Elt F) → (⟨S64x256x56x56, .f32⟩ : BufTy).Contents (Elt F)),
    unary main_v7 main_v8 (Host.exp : (⟨S64x256x56x56, .f32⟩ : BufTy).Contents (Elt F) → (⟨S64x256x56x56, .f32⟩ : BufTy).Contents (Elt F)),
    nullary main_cst (constant S_ .f32 0x3F800000#32),
    unary main_cst main_v9 (broadcastInDim S64x256x56x56 ![] bcast_S_S64x256x56x56 : (⟨S_, .f32⟩ : BufTy).Contents (Elt F) → (⟨S64x256x56x56, .f32⟩ : BufTy).Contents (Elt F)),
    binary main_v9 main_v8 main_v10 (addf : (⟨S64x256x56x56, .f32⟩ : BufTy).Contents (Elt F) → (⟨S64x256x56x56, .f32⟩ : BufTy).Contents (Elt F) → (⟨S64x256x56x56, .f32⟩ : BufTy).Contents (Elt F)),
    nullary main_cst_2 (constant S_ .f32 0x3F800000#32),
    unary main_cst_2 main_v11 (broadcastInDim S64x256x56x56 ![] bcast_S_S64x256x56x56 : (⟨S_, .f32⟩ : BufTy).Contents (Elt F) → (⟨S64x256x56x56, .f32⟩ : BufTy).Contents (Elt F)),
    binary main_v11 main_v10 main_v12 (Host.divf : (⟨S64x256x56x56, .f32⟩ : BufTy).Contents (Elt F) → (⟨S64x256x56x56, .f32⟩ : BufTy).Contents (Elt F) → (⟨S64x256x56x56, .f32⟩ : BufTy).Contents (Elt F)),
    unary main_v5 main_call1_v0 (broadcastInDim S64x256x56x56 ![0, 1, 2, 3] bcast_S1x256x1x1_S64x256x56x56_0_1_2_3 : (⟨S1x256x1x1, .i1⟩ : BufTy).Contents (Elt F) → (⟨S64x256x56x56, .i1⟩ : BufTy).Contents (Elt F)),
    ternary main_call1_v0 main_v6 main_v12 main_v13 (select : (⟨S64x256x56x56, .i1⟩ : BufTy).Contents (Elt F) → (⟨S64x256x56x56, .f32⟩ : BufTy).Contents (Elt F) → (⟨S64x256x56x56, .f32⟩ : BufTy).Contents (Elt F) → (⟨S64x256x56x56, .f32⟩ : BufTy).Contents (Elt F)),
    unary main_v2 main_call2_v0 (broadcastInDim S64x256x56x56 ![0, 1, 2, 3] bcast_S1x256x1x1_S64x256x56x56_0_1_2_3 : (⟨S1x256x1x1, .i1⟩ : BufTy).Contents (Elt F) → (⟨S64x256x56x56, .i1⟩ : BufTy).Contents (Elt F)),
    ternary main_call2_v0 main_v3 main_v13 main_v14 (select : (⟨S64x256x56x56, .i1⟩ : BufTy).Contents (Elt F) → (⟨S64x256x56x56, .f32⟩ : BufTy).Contents (Elt F) → (⟨S64x256x56x56, .f32⟩ : BufTy).Contents (Elt F) → (⟨S64x256x56x56, .f32⟩ : BufTy).Contents (Elt F)) ]

/-- @main is that straight line: the helper functions unfolded at their calls and the sequencing reassociated. -/
theorem main_eq (c : Dev nD) : main (F := F) c = seq ops := by
  simp only [main, fn_relu.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub ..,
    nullary_bufs_sub .., unary_bufs_sub .., binary_bufs_sub ..,
    nullary_bufs_sub .., unary_bufs_sub .., binary_bufs_sub ..,
    unary_bufs_sub .., unary_bufs_sub .., unary_bufs_sub ..,
    nullary_bufs_sub .., unary_bufs_sub .., binary_bufs_sub ..,
    nullary_bufs_sub .., unary_bufs_sub .., binary_bufs_sub ..,
    unary_bufs_sub .., ternary_bufs_sub .., unary_bufs_sub .., ternary_bufs_sub ..⟩

/-- From any memory with zero counters every weakly fair execution of the reference terminates, its result buffer at
    `refTerm` of the argument's launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v14).trans (by unfold refTerm; after_results; rfl),
      (h c main_arg0).trans (by after_results)⟩)
    (run_seq scopedRefs_eq scopedSems_eq defs main (fun _ => ops) main_eq (fun _ => ops_sub) m ρ)

end Cert.ReferenceIdeal.RefRun

end
-- ==== Proof.RefValue.lean ====
/-
  The reference's term is the channel-wise activation.

  The reference holds a table with each channel's class and selects, entry by entry, the rectifier where the class is
  `0`, the hyperbolic tangent where it is `1`, and the quotient `1 / (1 + exp (-x))` elsewhere.  The table's entry for
  channel `c` is `cls c` (checked over the 256 channels), a class is `0`, `1` or `2`, and over the extended reals the
  quotient IS the logistic function; so the term is `actOn 1`: each entry under the activation its channel selects.
-/
import proofs.«423847_j71846212927677_3_alg».proof.Proof.RefRun
import proofs.«423847_j71846212927677_3_alg».proof.Proof.Spec
import Idealize.ShloMosaic.PureOps.Ideal
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.RefRun Cert.MixedAct
open Idealize.ShloMosaic Idealize.ShloMosaic.ValueIdx

variable {F : FTy → Type} [FloatOps F]

/-- The literal table holds each channel's class. -/
theorem lit0_class : ∀ c : Fin 256, lit0 c = BitVec.ofNat 32 (cls c.val) := by decide +kernel

/-- The table as the program holds it, at channel `c`. -/
theorem table_at (c : Fin 256) : (table (F := F)) (ix1 c) = BitVec.ofNat 32 (cls c.val) := by
  show lit0 (S256.rowMajor (ix1 c)) = _
  have e : S256.rowMajor (ix1 c) = c := Fin.ext (Shape.rowMajor_val_one (ix1 c))
  rw [e, lit0_class]

/-- The mask "the class is `k`", broadcast over the array, at an entry: the entry's channel's class compared with `k`. -/
theorem classIs_at (k : BitVec 32) (i : S64x256x56x56.Idx) :
    broadcastInDim S64x256x56x56 ![0, 1, 2, 3] bcast_S1x256x1x1_S64x256x56x56_0_1_2_3 (classIs (F := F) k) i
      = IntOp.cmpi .eq (BitVec.ofNat 32 (cls (i 1).val)) k := by
  have hc : (i 1).val < 256 := (i 1).isLt
  rw [broadcastInDim_apply _ _ _ i (ix4 (0 : Fin 1) (⟨(i 1).val, hc⟩ : Fin 256) (0 : Fin 1) (0 : Fin 1))
    (fun a => match a with | ⟨0, _⟩ => rfl | ⟨1, _⟩ => rfl | ⟨2, _⟩ => rfl | ⟨3, _⟩ => rfl)]
  show IntOp.cmpi .eq
      (broadcastInDim S1x256x1x1 ![1] bcast_S256_S1x256x1x1_1 (table (F := F))
        (ix4 (0 : Fin 1) (⟨(i 1).val, hc⟩ : Fin 256) (0 : Fin 1) (0 : Fin 1))) k = _
  rw [broadcastInDim_apply _ _ _ _ (ix1 (⟨(i 1).val, hc⟩ : Fin 256)) (fun a => match a with | ⟨0, _⟩ => rfl), table_at]

theorem cmp_0_0 : IntOp.cmpi .eq (BitVec.ofNat 32 0) 0#32 = 1#1 := by decide
theorem cmp_1_0 : IntOp.cmpi .eq (BitVec.ofNat 32 1) 0#32 = 0#1 := by decide
theorem cmp_2_0 : IntOp.cmpi .eq (BitVec.ofNat 32 2) 0#32 = 0#1 := by decide
theorem cmp_1_1 : IntOp.cmpi .eq (BitVec.ofNat 32 1) 1#32 = 1#1 := by decide
theorem cmp_2_1 : IntOp.cmpi .eq (BitVec.ofNat 32 2) 1#32 = 0#1 := by decide

theorem select_one {α : Type} (a b : α) : Scalar.select 1#1 a b = a := rfl
theorem select_zero {α : Type} (a b : α) : Scalar.select 0#1 a b = b := rfl

/-- The word `0x3F800000` is the real number one. -/
theorem one_bits : Ideal.ofBits .f32 0x3F800000#32 = 1 := by
  simp [Ideal.ofBits, Ideal.ieee, -EReal.coe_mul]; norm_num

/-- THE REFERENCE'S TERM, over the extended reals, is the channel-wise activation of its argument. -/
theorem refTerm_eq (x : S64x256x56x56.Idx → Elt Ideal .f32) :
    refTerm (F := Ideal) x = actOn (F := Ideal) (s := S64x256x56x56) 1 x := by
  funext i
  unfold refTerm
  rw [select_apply, select_apply, classIs_at, classIs_at, actOn_apply]
  obtain h | h | h : cls (i 1).val = 0 ∨ cls (i 1).val = 1 ∨ cls (i 1).val = 2 := by unfold cls; omega
  · rw [h, cmp_0_0, select_one, act_zero]
    rfl
  · rw [h, cmp_1_0, select_zero, cmp_1_1, select_one, act_one]
    rfl
  · rw [h, cmp_2_0, select_zero, cmp_2_1, select_zero, act_two]
    show Ideal.div (Ideal.ofBits .f32 0x3F800000#32) (Ideal.ofBits .f32 0x3F800000#32 + Ideal.exp (-(x i)))
      = Ideal.logistic (x i)
    rw [one_bits]
    rfl

end Cert.ReferenceIdeal.RefValue

end
-- ==== Proof.lean ====
/-
  A per-channel choice of activation, computed two ways, is one function.

  The input is `x : f32[64, 256, 56, 56]`.  Channel `c` has class `(c / 16) % 3`; the result at `(n, c, h, w)` is the
  rectifier `max x 0`, the hyperbolic tangent or the logistic function of the entry, by the class of `c`.

  The kernel's program flattens `x` to `[16384, 3136]`, cuts it into thirty-two blocks of 512 rows and, inside a block,
  into groups of sixteen rows; each group is stored under ONE activation, chosen by the group's position.  A group of
  sixteen rows lies in one run of sixteen channels, and a block starts at a multiple of 256, so the group's activation
  is the one each of its rows' channels selects (Proof/Block.lean, Proof/Rows.lean); viewing the result at the
  original shape gives the channel-wise activation of `x` (Proof/Reshape.lean).

  The reference computes all three activations of the whole array and selects among them by a table of the channels'
  classes; its sigmoid is spelt `1 / (1 + exp (-x))`, which over the extended reals is the logistic function the
  kernel applies.  Its run is read back in Proof/RefRun.lean and its term identified with the channel-wise activation
  in Proof/RefValue.lean.  No law used needs the input to be finite: both sides apply the same pointwise functions.

  The frames of the two kernel programs are the generated ones; the reference's frame is its run with the result
  dropped; the idealization rewrote nothing, so `preserves` is `True`.
-/
import proofs.«423847_j71846212927677_3_alg».proof.Defs
import proofs.«423847_j71846212927677_3_alg».proof.Proof.Gen.Kernel
import proofs.«423847_j71846212927677_3_alg».proof.Proof.Gen.Kernel.Skeleton
import proofs.«423847_j71846212927677_3_alg».proof.Proof.Gen.Kernel.Launch
import proofs.«423847_j71846212927677_3_alg».proof.Proof.Gen.Kernel.Points
import proofs.«423847_j71846212927677_3_alg».proof.Proof.Gen.Kernel.Frame
import proofs.«423847_j71846212927677_3_alg».proof.Proof.Gen.KernelIdeal
import proofs.«423847_j71846212927677_3_alg».proof.Proof.Gen.KernelIdeal.Skeleton
import proofs.«423847_j71846212927677_3_alg».proof.Proof.Gen.KernelIdeal.Launch
import proofs.«423847_j71846212927677_3_alg».proof.Proof.Gen.KernelIdeal.Points
import proofs.«423847_j71846212927677_3_alg».proof.Proof.Gen.KernelIdeal.Frame
import proofs.«423847_j71846212927677_3_alg».proof.Proof.Gen.ReferenceIdeal
import proofs.«423847_j71846212927677_3_alg».proof.Proof.Gen.Pre_finite_inputs
import proofs.«423847_j71846212927677_3_alg».proof.Proof.Rows
import proofs.«423847_j71846212927677_3_alg».proof.Proof.RefValue
import Idealize.ShloMosaic.Adequacy
import Idealize.ShloMosaic.Init

noncomputable section

namespace Cert.Proof

open Idealize.ShloMosaic Idealize.ShloMosaic.TcCoe Idealize.SL.Sem Cert.MixedAct

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Over the extended reals both programs end with the channel-wise activation of the argument: the kernel's by
    `Rows.run`, the reference's by its run and `refTerm_eq`, from memories that agree on the argument. -/
theorem algebraic : Cert.algebraic_KernelIdeal_ReferenceIdeal := by
  intro m ρ m' ρ' _ hagree
  refine ⟨fun c => actOn (F := Ideal) (s := Cert.KernelIdeal.S64x256x56x56) 1
      (m ((c.tc : Thread Cert.KernelIdeal.nD Cert.KernelIdeal.τ).loc Cert.KernelIdeal.main_arg0)),
    Cert.KernelIdeal.Rows.run (F := Ideal) m ρ, ?_⟩
  refine (θ_run Cert.ReferenceIdeal.defs _ _).mono (fun _ h c => ⟨?_, (h c).2⟩)
    (Cert.ReferenceIdeal.RefRun.run (F := Ideal) m' ρ')
  rw [(h c).1, Cert.ReferenceIdeal.RefValue.refTerm_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
